-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x4096 .f32) (main_arg2 : FVec F S4096 .f32) (main_arg3 : FVec F S4096x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S8192x1024, .f32⟩
  | .hbm, ⟨11, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The function both programs compute, stated once over the extended reals: a two-layer dense network with a
  rectifier between the layers. For one token, written as a row `xrow` of 1024 numbers, hidden unit `k` holds
  `max (Σ_d xrow d · w1 d k + b1 k) 0` and output entry `q` is `Σ_k hidden k · w2 k q + b2 q`. The zero the
  rectifier compares with is kept as the float word both programs print; it is never evaluated here.

  `result` lays that entry out over the [4, 2048, 1024] array of the claim (batch, position, feature): the token
  of entry (b, s, q) is row (b, s) of `x`. `rows` lays the same entry out over an [n, 1024] matrix of tokens
  whose biases are kept as one-row matrices: the form the kernel's blocks and its [8192, 1024] result array have.
-/
import Idealize.ShloMosaic.PureOps.Ideal
import Idealize.ShloMosaic.Lib.ValueIdx

noncomputable section

namespace Cert.DenseFfn

open Idealize.ShloMosaic Idealize.ShloMosaic.ValueIdx

/-- One output entry of the network for one token: `Σ_k max (Σ_d xrow d · w1 d k + b1 k) 0 · w2 k q + b2 q`. -/
def entry (xrow : Fin 1024 → EReal) (w1 : Fin 1024 → Fin 4096 → EReal) (b1 : Fin 4096 → EReal)
    (w2 : Fin 4096 → Fin 1024 → EReal) (b2 : Fin 1024 → EReal) (q : Fin 1024) : EReal :=
  (∑ k : Fin 4096, max ((∑ d : Fin 1024, xrow d * w1 d k) + b1 k) (Ideal.ofBits .f32 0x00000000#32) * w2 k q) + b2 q

/-- Two entries are equal when their token rows, weights and biases are. -/
theorem entry_congr {xrow xrow' : Fin 1024 → EReal} {w1 w1' : Fin 1024 → Fin 4096 → EReal} {b1 b1' : Fin 4096 → EReal}
    {w2 w2' : Fin 4096 → Fin 1024 → EReal} {b2 b2' : Fin 1024 → EReal} (hx : xrow = xrow') (hw1 : w1 = w1')
    (hb1 : b1 = b1') (hw2 : w2 = w2') (hb2 : b2 = b2') (q : Fin 1024) :
    entry xrow w1 b1 w2 b2 q = entry xrow' w1' b1' w2' b2' q := by
  subst hx hw1 hb1 hw2 hb2; rfl

/-- The whole result over [4, 2048, 1024]: entry (b, s, q) is the network's entry `q` for the token `x[b, s, ·]`. -/
def result (x : (⟨3, ![4, 2048, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) : (⟨3, ![4, 2048, 1024]⟩ : Shape).Idx → EReal := fun i =>
  entry (fun d => x (ix3 (i 0) (i 1) d)) (fun d k => w1 (ix2 d k)) (fun k => b1 (ix1 k)) (fun k q => w2 (ix2 k q))
    (fun q => b2 (ix1 q)) (i 2)

/-- The same over a matrix of `n` tokens, the biases one-row matrices: entry (r, q) is the network's entry `q`
    for the token `X[r, ·]`. -/
def rows {n : Nat} (X : (⟨2, ![n, 1024]⟩ : Shape).Idx → EReal) (W1 : (⟨2, ![1024, 4096]⟩ : Shape).Idx → EReal)
    (B1 : (⟨2, ![1, 4096]⟩ : Shape).Idx → EReal) (W2 : (⟨2, ![4096, 1024]⟩ : Shape).Idx → EReal)
    (B2 : (⟨2, ![1, 1024]⟩ : Shape).Idx → EReal) : (⟨2, ![n, 1024]⟩ : Shape).Idx → EReal := fun j =>
  entry (fun d => X (ix2 (j 0) d)) (fun d k => W1 (ix2 d k)) (fun k => B1 (ix2 0 k)) (fun k q => W2 (ix2 k q))
    (fun q => B2 (ix2 0 q)) (j 1)

/-- `rows` at explicit coordinates. -/
theorem rows_apply {n : Nat} (X : (⟨2, ![n, 1024]⟩ : Shape).Idx → EReal) (W1 : (⟨2, ![1024, 4096]⟩ : Shape).Idx → EReal)
    (B1 : (⟨2, ![1, 4096]⟩ : Shape).Idx → EReal) (W2 : (⟨2, ![4096, 1024]⟩ : Shape).Idx → EReal)
    (B2 : (⟨2, ![1, 1024]⟩ : Shape).Idx → EReal) (r : Fin n) (q : Fin 1024) :
    rows X W1 B1 W2 B2 (ix2 r q)
      = entry (fun d => X (ix2 r d)) (fun d k => W1 (ix2 d k)) (fun k => B1 (ix2 0 k)) (fun k q => W2 (ix2 k q))
          (fun q => B2 (ix2 0 q)) q := rfl

/-- `result` at explicit coordinates. -/
theorem result_apply (x : (⟨3, ![4, 2048, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) (b : Fin 4) (s : Fin 2048) (q : Fin 1024) :
    result x w1 b1 w2 b2 (ix3 b s q)
      = entry (fun d => x (ix3 b s d)) (fun d k => w1 (ix2 d k)) (fun k => b1 (ix1 k)) (fun k q => w2 (ix2 k q))
          (fun q => b2 (ix1 q)) q := rfl

end Cert.DenseFfn

end
-- ==== Proof.RefValue.lean ====
/-
  The reference, read at an index. Its result at (b, s, q) is the second contraction, over the 4096 hidden units,
  of the rectified first layer at (b, s, k) against `w2[k, q]`, plus `b2[q]`; the first layer at (b, s, k) is the
  contraction over the 1024 features of `x[b, s, d]` against `w1[d, k]`, plus `b1[k]`. The two bias terms reach
  their places through two broadcasts each, which only copy. So the reference's result is `DenseFfn.result`.
-/
import proofs.«136109_j58506044506432_1_alg».proof.Proof.Gen.ReferenceIdeal.Read
import proofs.«136109_j58506044506432_1_alg».proof.Proof.Spec

noncomputable section

namespace Cert.ReferenceIdeal.RefValue

open Cert.ReferenceIdeal Cert.ReferenceIdeal.Read Idealize.ShloMosaic Idealize.ShloMosaic.ValueIdx Cert.DenseFfn

/-! ## Where each operation reads its operands -/

/-- The first contraction at (b, s, k) reads `x` at (b, s, d) … -/
theorem lidx_first (b : Fin 4) (s : Fin 2048) (k : Fin 4096) (d : Fin 1024) :
    lidx_main_v0 (ix3 b s k) d = ix3 b s d :=
  funext fun a => Fin.ext (by match a with | ⟨0, _⟩ => rfl | ⟨1, _⟩ => rfl | ⟨2, _⟩ => rfl)

/-- … and `w1` at (d, k). -/
theorem ridx_first (b : Fin 4) (s : Fin 2048) (k : Fin 4096) (d : Fin 1024) :
    ridx_main_v0 (ix3 b s k) d = ix2 d k :=
  funext fun a => Fin.ext (by match a with | ⟨0, _⟩ => rfl | ⟨1, _⟩ => rfl)

/-- The broadcast first bias at (b, s, k) is `b1` at k. -/
theorem idx_bias1 (b : Fin 4) (s : Fin 2048) (k : Fin 4096) :
    idx_main_v1 (idx_main_v2 (ix3 b s k)) = ix1 k :=
  funext fun a => Fin.ext (by match a with | ⟨0, _⟩ => rfl)

/-- The second contraction at (b, s, q) reads the hidden layer at (b, s, k) … -/
theorem lidx_second (b : Fin 4) (s : Fin 2048) (q : Fin 1024) (k : Fin 4096) :
    lidx_main_v5 (ix3 b s q) k = ix3 b s k :=
  funext fun a => Fin.ext (by match a with | ⟨0, _⟩ => rfl | ⟨1, _⟩ => rfl | ⟨2, _⟩ => rfl)

/-- … and `w2` at (k, q). -/
theorem ridx_second (b : Fin 4) (s : Fin 2048) (q : Fin 1024) (k : Fin 4096) :
    ridx_main_v5 (ix3 b s q) k = ix2 k q :=
  funext fun a => Fin.ext (by match a with | ⟨0, _⟩ => rfl | ⟨1, _⟩ => rfl)

/-- The broadcast second bias at (b, s, q) is `b2` at q. -/
theorem idx_bias2 (b : Fin 4) (s : Fin 2048) (q : Fin 1024) :
    idx_main_v6 (idx_main_v7 (ix3 b s q)) = ix1 q :=
  funext fun a => Fin.ext (by match a with | ⟨0, _⟩ => rfl)

/-! ## The two layers -/

/-- The rectified first layer at (b, s, k): `max (Σ_d x[b,s,d] · w1[d,k] + b1[k]) 0`. -/
theorem hidden_apply (x : (⟨S4x2048x1024, .f32⟩ : BufTy).Contents (Elt Ideal)) (w1 : (⟨S1024x4096, .f32⟩ : BufTy).Contents (Elt Ideal))
    (b1 : (⟨S4096, .f32⟩ : BufTy).Contents (Elt Ideal)) (b : Fin 4) (s : Fin 2048) (k : Fin 4096) :
    val_main_v4 (F := Ideal) x w1 b1 (ix3 b s k)
      = max ((∑ d : Fin 1024, x (ix3 b s d) * w1 (ix2 d k)) + b1 (ix1 k)) (Ideal.ofBits .f32 0x00000000#32) := by
  rw [val_main_v4_apply, val_main_v3_apply, val_main_v0_apply, val_main_v2_apply, val_main_v1_apply,
    val_main_call0_v0_apply, val_main_call0_cst_apply, idx_bias1]
  simp only [lidx_first, ridx_first, Ideal.maximumf_def, Ideal.addf_def, Ideal.ofBits_def]

/-- The reference's result is `DenseFfn.result` of its five arguments. -/
theorem result_eq (x : (⟨S4x2048x1024, .f32⟩ : BufTy).Contents (Elt Ideal)) (w1 : (⟨S1024x4096, .f32⟩ : BufTy).Contents (Elt Ideal))
    (b1 : (⟨S4096, .f32⟩ : BufTy).Contents (Elt Ideal)) (w2 : (⟨S4096x1024, .f32⟩ : BufTy).Contents (Elt Ideal))
    (b2 : (⟨S1024, .f32⟩ : BufTy).Contents (Elt Ideal)) :
    val_main_v8 (F := Ideal) x w1 b1 w2 b2 = result x w1 b1 w2 b2 := by
  funext i
  obtain ⟨b, s, q, rfl⟩ : ∃ (b : Fin 4) (s : Fin 2048) (q : Fin 1024), i = ix3 b s q := ⟨i 0, i 1, i 2, eq_ix3 i⟩
  rw [result_apply, val_main_v8_apply, val_main_v5_apply, val_main_v7_apply, val_main_v6_apply, idx_bias2]
  unfold entry
  simp only [lidx_second, ridx_second, hidden_apply, Ideal.addf_def]

end Cert.ReferenceIdeal.RefValue

end
-- ==== Proof.BlockValue.lean ====
/-
  What the kernel body computes on one block of 256 tokens, read at an entry (p, q) of its 256 × 1024 result.
  The body multiplies the block by the first weight matrix into a zero accumulator, which at the extended reals is the
  plain sum over the 1024 features; adds the first bias, one row broadcast over the 256 tokens; rectifies against
  zero; multiplies by the second weight matrix, again into a zero accumulator, the plain sum over the 4096 hidden
  units; and adds the second bias row. The narrowings to sixteen bits between the steps change no value over the
  extended reals, and the casts of a block to its own shape are the identity. So entry (p, q) is `DenseFfn.entry`
  for the token in row p of the block.
-/
import proofs.«136109_j58506044506432_1_alg».proof.Proof.Gen.KernelIdeal.Skeleton
import proofs.«136109_j58506044506432_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.DenseFfn

/-! ## The first product: 256 × 1024 by 1024 × 4096, contracting the features -/

theorem lhsA_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhsA_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhsA_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhsA_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into the zero accumulator the first product at (p, c) is the sum over the features of `l[p, k] · r[k, c]`. -/
theorem firstDot_apply (l : FVec Ideal S256x1024 .bf16) (r : FVec Ideal S1024x4096 .bf16) (p : Fin 256) (c : Fin 4096) :
    matmul dot_S256x1024_S1024x4096_S256x4096_1_0_0_1_n_n none l r (constant (F := Ideal) S256x4096 .f32 0x00000000#32) (ix2 p c)
      = ∑ k : Fin 1024, l (ix2 p k) * r (ix2 k c) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p c) ((ValueIdx.contrEquiv1 dot_S256x1024_S1024x4096_S256x4096_1_0_0_1_n_n 1024 rfl rfl).symm k) = ix2 p k := funext fun a => Fin.ext (by
    match a with
    | ⟨0, _⟩ => exact lhsA_0 _ _
    | ⟨1, _⟩ => exact (lhsA_1 _ _).trans hk)
  have er : dot_S256x1024_S1024x4096_S256x4096_1_0_0_1_n_n.rhsIdx (ix2 p c) ((ValueIdx.contrEquiv1 dot_S256x1024_S1024x4096_S256x4096_1_0_0_1_n_n 1024 rfl rfl).symm k) = ix2 k c := funext fun a => Fin.ext (by
    match a with
    | ⟨0, _⟩ => exact (rhsA_0 _ _).trans hk
    | ⟨1, _⟩ => exact rhsA_1 _ _)
  rw [el, er]

/-! ## The second product: 256 × 4096 by 4096 × 1024, contracting the hidden units -/

theorem lhsB_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhsB_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhsB_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhsB_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Into the zero accumulator the second product at (p, c) is the sum over the hidden units of `l[p, k] · r[k, c]`. -/
theorem secondDot_apply (l : FVec Ideal S256x4096 .bf16) (r : FVec Ideal S4096x1024 .bf16) (p : Fin 256) (c : Fin 1024) :
    matmul dot_S256x4096_S4096x1024_S256x1024_1_0_0_1_n_n none l r (constant (F := Ideal) S256x1024 .f32 0x00000000#32) (ix2 p c)
      = ∑ k : Fin 4096, l (ix2 p k) * r (ix2 k c) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p c) ((ValueIdx.contrEquiv1 dot_S256x4096_S4096x1024_S256x1024_1_0_0_1_n_n 4096 rfl rfl).symm k) = ix2 p k := funext fun a => Fin.ext (by
    match a with
    | ⟨0, _⟩ => exact lhsB_0 _ _
    | ⟨1, _⟩ => exact (lhsB_1 _ _).trans hk)
  have er : dot_S256x4096_S4096x1024_S256x1024_1_0_0_1_n_n.rhsIdx (ix2 p c) ((ValueIdx.contrEquiv1 dot_S256x4096_S4096x1024_S256x1024_1_0_0_1_n_n 4096 rfl rfl).symm k) = ix2 k c := funext fun a => Fin.ext (by
    match a with
    | ⟨0, _⟩ => exact (rhsB_0 _ _).trans hk
    | ⟨1, _⟩ => exact rhsB_1 _ _)
  rw [el, er]

/-! ## The body's one store, at an entry -/

/-- The value the body stores, at entry (p, q) of the block: the network's entry `q` for the token in row p. -/
theorem payload_apply (x0 : Vec Ideal S256x1024 .f32) (x1 : Vec Ideal S1024x4096 .bf16) (x2 : Vec Ideal S1x4096 .f32)
    (x3 : Vec Ideal S4096x1024 .bf16) (x4 : Vec Ideal S1x1024 .f32) (p : Fin 256) (q : Fin 1024) :
    k0_pay1 (F := Ideal) x0 x1 x2 x3 x4 (ix2 p q)
      = entry (fun d => x0 (ix2 p d)) (fun d k => x1 (ix2 d k)) (fun k => x2 (ix2 0 k)) (fun k q => x3 (ix2 k q))
          (fun q => x4 (ix2 0 q)) q := by
  unfold k0_pay1 entry
  simp only [shapeCast_self]
  refine (addf_apply _ _ _).trans ?_
  refine congrArg₂ (· + ·) ?_ (broadcastTo_1b_ab_apply x4 _ p q)
  refine (secondDot_apply _ _ p q).trans ?_
  refine Finset.sum_congr rfl fun k _ => ?_
  refine congrArg₂ (· * ·) ?_ rfl
  refine (truncf_apply (ψ := .bf16) (φ := .f32) (maximumf _ _) bitsLt_bf16_f32 (ix2 p k)).trans ?_
  refine (maximumf_apply _ _ _).trans ?_
  refine congrArg₂ max ?_ rfl
  refine (addf_apply _ _ _).trans ?_
  refine congrArg₂ (· + ·) ?_ (broadcastTo_1b_ab_apply x2 _ p k)
  refine (firstDot_apply _ _ p k).trans ?_
  rfl

end Cert.KernelIdeal.BlockValue

end
-- ==== Proof.ArrayValue.lean ====
/-
  From blocks to the kernel's result array. The grid has 32 points; point t works on tokens 256·t … 256·t + 255:
  its block of the token matrix and its block of the result are rows 256·t … 256·t + 255, all 1024 columns, while
  the two weight matrices and the two bias rows are whole at every point. So what point t writes back is the block
  of ONE function of the arrays the call is launched on, `DenseFfn.rows` of them, and since the 32 blocks of 256
  rows cover the 8192 rows (row r lies in the block of point r / 256), the result array ends holding that function.
-/
import proofs.«136109_j58506044506432_1_alg».proof.Proof.Gen.KernelIdeal.Frame
import proofs.«136109_j58506044506432_1_alg».proof.Proof.BlockValue
import Idealize.ShloMosaic.Lib.Pipeline.Value

set_option maxRecDepth 16384

noncomputable section

namespace Cert.KernelIdeal.ArrayValue

open Cert.KernelIdeal Cert.KernelIdeal.Gen Cert.KernelIdeal.BlockValue Idealize.ShloMosaic Idealize.ShloMosaic.TcCoe
open Idealize.ShloMosaic.ValueIdx Idealize.SL.Sem Cert.DenseFfn
open Idealize.ShloMosaic.Pipeline (Dat)

variable (m : (ℓ : Loc nD τ sig) → Buf (Elt Ideal) ℓ)

/-! ## The arrays the call is launched on -/

/-- The token matrix, 8192 × 1024. -/
abbrev tokens (c : Dev nD) : Vec Ideal S8192x1024 .f32 := V m c main_v0
/-- The first weight matrix, 1024 × 4096. -/
abbrev weights1 (c : Dev nD) : Vec Ideal S1024x4096 .bf16 := V m c main_v1
/-- The first bias as a row, 1 × 4096. -/
abbrev bias1 (c : Dev nD) : Vec Ideal S1x4096 .f32 := V m c main_v3
/-- The second weight matrix, 4096 × 1024. -/
abbrev weights2 (c : Dev nD) : Vec Ideal S4096x1024 .bf16 := V m c main_v2
/-- The second bias as a row, 1 × 1024. -/
abbrev bias2 (c : Dev nD) : Vec Ideal S1x1024 .f32 := V m c main_v4

/-- What the result array ends holding: the network applied to each of the 8192 tokens. -/
def outRows (c : Dev nD) : Vec Ideal S8192x1024 .f32 :=
  rows (tokens m c) (weights1 m c) (bias1 m c) (weights2 m c) (bias2 m c)

/-! ## The index maps, decided over the 32 points -/

theorem zero_offsets : (![0, 0] : Fin 2 → Nat) = fun _ => 0 := funext fun a => by fin_cases a <;> rfl

/-- The token block and the result block of point t are block row t; the weights and biases are block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := by
  have h : t.val < grid0.N := t.isLt
  have hN : grid0.N = 32 := N_0
  omega

/-- Row p of point t's block is row 256·t + p of the matrix. -/
abbrev tokenRow (t : Fin cfg0.N) (p : Fin 256) : Fin 8192 := ⟨t.val * 256 + p.val, by have := point_lt t; omega⟩

/-! ## Each window's block, read off its array -/

/-- The token block of point t at (p, d) is the token matrix at (256·t + p, d). -/
theorem tokenBlock_apply (c : Dev nD) (t : Fin cfg0.N) (p : Fin 256) (d : Fin 1024) :
    iblk m c 0 t (ix2 p d) = tokens m c (ix2 (tokenRow t p) d) := by
  obtain ⟨e0, e1, -⟩ := block_indices t
  show V m c main_v0 (((cfg0.win 0).blk t).view.emb (ix2 p d)) = V m c main_v0 (ix2 (tokenRow t p) d)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * d.val = d.val; omega

/-- The first weight block is the whole matrix. -/
theorem weights1Block_apply (c : Dev nD) (t : Fin cfg0.N) (d : Fin 1024) (k : Fin 4096) :
    iblk m c 1 t (ix2 d k) = weights1 m c (ix2 d k) := by
  obtain ⟨-, -, e0, e1, -⟩ := block_indices t
  show V m c main_v1 (((cfg0.win 1).blk t).view.emb (ix2 d k)) = V m c main_v1 (ix2 d k)
  refine congrArg _ (funext fun a => Fin.ext ?_)
  match a with
  | ⟨0, _⟩ => show win0_1.index t (0 : Fin 2) * 1024 + 1 * d.val = d.val; omega
  | ⟨1, _⟩ => show win0_1.index t (1 : Fin 2) * 4096 + 1 * k.val = k.val; omega

/-- The first bias block is the whole row. -/
theorem bias1Block_apply (c : Dev nD) (t : Fin cfg0.N) (k : Fin 4096) :
    iblk m c 2 t (ix2 0 k) = bias1 m c (ix2 0 k) := by
  obtain ⟨-, -, -, -, e0, e1, -⟩ := block_indices t
  show V m c main_v3 (((cfg0.win 2).blk t).view.emb (ix2 0 k)) = V m c main_v3 (ix2 0 k)
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * k.val = k.val; omega

/-- The second weight block is the whole matrix. -/
theorem weights2Block_apply (c : Dev nD) (t : Fin cfg0.N) (k : Fin 4096) (q : Fin 1024) :
    iblk m c 3 t (ix2 k q) = weights2 m c (ix2 k q) := by
  obtain ⟨-, -, -, -, -, -, e0, e1, -⟩ := block_indices t
  show V m c main_v2 (((cfg0.win 3).blk t).view.emb (ix2 k q)) = V m c main_v2 (ix2 k q)
  refine congrArg _ (funext fun a => Fin.ext ?_)
  match a with
  | ⟨0, _⟩ => show win0_3.index t (0 : Fin 2) * 4096 + 1 * k.val = k.val; omega
  | ⟨1, _⟩ => show win0_3.index t (1 : Fin 2) * 1024 + 1 * q.val = q.val; omega

/-- The second bias block is the whole row. -/
theorem bias2Block_apply (c : Dev nD) (t : Fin cfg0.N) (q : Fin 1024) :
    iblk m c 4 t (ix2 0 q) = bias2 m c (ix2 0 q) := by
  obtain ⟨-, -, -, -, -, -, -, -, e0, e1, -⟩ := block_indices t
  show V m c main_v4 (((cfg0.win 4).blk t).view.emb (ix2 0 q)) = V m c main_v4 (ix2 0 q)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- Entry (p, q) of point t's result block lies at (256·t + p, q) of the result array. -/
theorem outBlock_emb (t : Fin cfg0.N) (p : Fin 256) (q : Fin 1024) :
    ((cfg0.win 5).blk t).view.emb (ix2 p q) = ix2 (tokenRow t p) q := by
  obtain ⟨-, -, -, -, -, -, -, -, -, -, e0, e1⟩ := block_indices t
  refine funext fun a => Fin.ext ?_
  match a with
  | ⟨0, _⟩ => show win0_5.index t (0 : Fin 2) * 256 + 1 * p.val = t.val * 256 + p.val; omega
  | ⟨1, _⟩ => show win0_5.index t (1 : Fin 2) * 1024 + 1 * q.val = q.val; omega

/-! ## What a point writes back -/

/-- What point t writes back is block t of `outRows`. -/
theorem flushed_eq (c : Dev nD) (t : Fin cfg0.N) :
    (dats m 0 c).flushed 5 t = ((cfg0.win 5).blk t).view.read (Elt Ideal) (outRows m c) := by
  show (cfg0.win 5).cut (grid0.coords t) ((dats m 0 c).after 5 t) = _
  rw [after0_5]
  unfold out0_5
  rw [View.canon_unit_zero zero_offsets]
  simp only [View.ld_unit_zero (S := S256x1024) zero_offsets, View.ld_unit_zero (S := S1024x4096) zero_offsets,
    View.ld_unit_zero (S := S1x4096) zero_offsets, View.ld_unit_zero (S := S4096x1024) zero_offsets,
    View.ld_unit_zero (S := S1x1024) zero_offsets]
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = outRows m c (((cfg0.win 5).blk t).view.emb (ix2 p q))
  refine (payload_apply (iblk m c 0 t) (iblk m c 1 t) (iblk m c 2 t) (iblk m c 3 t) (iblk m c 4 t) p q).trans ?_
  rw [outBlock_emb]
  unfold outRows
  rw [rows_apply]
  exact entry_congr (funext fun d => tokenBlock_apply m c t p d) (funext fun d => funext fun k => weights1Block_apply m c t d k)
    (funext fun k => bias1Block_apply m c t k) (funext fun k => funext fun q => weights2Block_apply m c t k q)
    (funext fun q => bias2Block_apply m c t q) q

/-! ## The blocks cover the array -/

/-- An index of the result array is in point t's block iff each coordinate is in the block's range on its axis. -/
theorem mem_block (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Row r of the result array lies in the block of point r / 256, which writes it back. -/
theorem covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 32 := N_0
  have ht : (i 0).val / 256 < grid0.N := by omega
  refine ⟨⟨(i 0).val / 256, ht⟩, flush0_5 _, ?_⟩
  rw [mem_block]
  obtain ⟨-, -, -, -, -, -, -, -, -, -, e0, e1⟩ := block_indices ⟨(i 0).val / 256, ht⟩
  have e0' : win0_5.index ⟨(i 0).val / 256, ht⟩ (0 : Fin 2) = (i 0).val / 256 := e0
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    omega

/-- The result array after the call: the network applied to each of the 8192 tokens. -/
theorem final (c : Dev nD) : (dats m 0 c).arrAt 5 cfg0.N = outRows m c :=
  (dats m 0 c).arrAt_eq_of_cover 5 (outRows m c) (fun t _ => flushed_eq m c t) covered

end Cert.KernelIdeal.ArrayValue

end
-- ==== Proof.HostValue.lean ====
/-
  The host operations around the call, read at an index. Before it: the [4, 2048, 1024] input is reshaped to the
  8192 × 1024 token matrix, so that token 2048·b + s is row (b, s) of the input; the two weight matrices are narrowed to
  sixteen bits, which changes no value over the extended reals; the two biases are reshaped to one-row matrices. After
  it: the 8192 × 1024 result is reshaped back to [4, 2048, 1024], entry (b, s, q) being entry (2048·b + s, q) of the matrix.
  Put together with the result array's contents, the program's result is `DenseFfn.result` of its five arguments.
-/
import proofs.«136109_j58506044506432_1_alg».proof.Proof.ArrayValue
import Idealize.ShloMosaic.Lib.StableHlo.Run
import Idealize.ShloMosaic.Lib.ValueLayout

set_option maxRecDepth 16384

noncomputable section

namespace Cert.KernelIdeal.HostValue

open Cert.KernelIdeal Cert.KernelIdeal.Gen Cert.KernelIdeal.ArrayValue Idealize.ShloMosaic Idealize.ShloMosaic.TcCoe
open Idealize.ShloMosaic.ValueIdx Idealize.SL.Sem Cert.DenseFfn Idealize.ShloMosaic.StableHlo

variable (m : (ℓ : Loc nD τ sig) → Buf (Elt Ideal) ℓ)

/-! ## The arguments, by name -/

abbrev argX (c : Dev nD) : Vec Ideal S4x2048x1024 .f32 := m ((c : Thread nD τ).loc main_arg0)
abbrev argW1 (c : Dev nD) : Vec Ideal S1024x4096 .f32 := m ((c : Thread nD τ).loc main_arg1)
abbrev argB1 (c : Dev nD) : Vec Ideal S4096 .f32 := m ((c : Thread nD τ).loc main_arg2)
abbrev argW2 (c : Dev nD) : Vec Ideal S4096x1024 .f32 := m ((c : Thread nD τ).loc main_arg3)
abbrev argB2 (c : Dev nD) : Vec Ideal S1024 .f32 := m ((c : Thread nD τ).loc main_arg4)

/-! ## Before the call -/

/-- The token matrix is the input reshaped. -/
theorem tokens_eq (c : Dev nD) :
    tokens m c = shapeCast S8192x1024 (argX m c) shapeCasts_S4x2048x1024_S8192x1024 := by
  show StableHlo.after hostOps0 (fun b => m (c, b)) (Proc.devRef .tc main_v0) = _
  after_results <;> rfl

/-- The first weight matrix, narrowed. -/
theorem weights1_eq (c : Dev nD) :
    weights1 m c = (truncf (F := Ideal) (s := S1024x4096) (φ := .f32) .bf16 (argW1 m c) bitsLt_bf16_f32 : FVec Ideal S1024x4096 .bf16) := by
  show StableHlo.after hostOps0 (fun b => m (c, b)) (Proc.devRef .tc main_v1) = _
  after_results <;> rfl

/-- The first bias as a row. -/
theorem bias1_eq (c : Dev nD) :
    bias1 m c = shapeCast S1x4096 (argB1 m c) shapeCasts_S4096_S1x4096 := by
  show StableHlo.after hostOps0 (fun b => m (c, b)) (Proc.devRef .tc main_v3) = _
  after_results <;> rfl

/-- The second weight matrix, narrowed. -/
theorem weights2_eq (c : Dev nD) :
    weights2 m c = (truncf (F := Ideal) (s := S4096x1024) (φ := .f32) .bf16 (argW2 m c) bitsLt_bf16_f32 : FVec Ideal S4096x1024 .bf16) := by
  show StableHlo.after hostOps0 (fun b => m (c, b)) (Proc.devRef .tc main_v2) = _
  after_results <;> rfl

/-- The second bias as a row. -/
theorem bias2_eq (c : Dev nD) :
    bias2 m c = shapeCast S1x1024 (argB2 m c) shapeCasts_S1024_S1x1024 := by
  show StableHlo.after hostOps0 (fun b => m (c, b)) (Proc.devRef .tc main_v4) = _
  after_results <;> rfl

/-- Token 2048·b + s. -/
abbrev tokenOf (b : Fin 4) (s : Fin 2048) : Fin 8192 := ⟨b.val * 2048 + s.val, by omega⟩

/-- Row 2048·b + s of the token matrix is row (b, s) of the input. -/
theorem tokens_apply (c : Dev nD) (b : Fin 4) (s : Fin 2048) (d : Fin 1024) :
    tokens m c (ix2 (tokenOf b s) d) = argX m c (ix3 b s d) := by
  rw [tokens_eq]
  refine shapeCast_apply (argX m c) _ (ix2 (tokenOf b s) d) (ix3 b s d) ?_
  rw [Shape.rowMajor_val_three, Shape.rowMajor_val_two]
  show (b.val * 2048 + s.val) * 1024 + d.val = (b.val * 2048 + s.val) * 1024 + d.val
  rfl

theorem weights1_apply (c : Dev nD) (d : Fin 1024) (k : Fin 4096) :
    weights1 m c (ix2 d k) = argW1 m c (ix2 d k) := by
  rw [weights1_eq]; rfl

theorem bias1_apply (c : Dev nD) (k : Fin 4096) :
    bias1 m c (ix2 0 k) = argB1 m c (ix1 k) := by
  rw [bias1_eq]
  exact shapeCast_a_1a_apply (argB1 m c) _ 0 k

theorem weights2_apply (c : Dev nD) (k : Fin 4096) (q : Fin 1024) :
    weights2 m c (ix2 k q) = argW2 m c (ix2 k q) := by
  rw [weights2_eq]; rfl

theorem bias2_apply (c : Dev nD) (q : Fin 1024) :
    bias2 m c (ix2 0 q) = argB2 m c (ix1 q) := by
  rw [bias2_eq]
  exact shapeCast_a_1a_apply (argB2 m c) _ 0 q

/-! ## After the call -/

/-- The program's result buffer after the run is the result array reshaped. -/
theorem tail_eq (c : Dev nD) :
    Pipeline.afterTail₀ cfgs (dats m) 0 (V0 m) [hostOps1] c main_v6
      = shapeCast S4x2048x1024 (outRows m c) shapeCasts_S8192x1024_S4x2048x1024 := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 5).trans (final m c)
  exact congrArg (fun A : Vec Ideal S8192x1024 .f32 => shapeCast S4x2048x1024 A shapeCasts_S8192x1024_S4x2048x1024) e

end Cert.KernelIdeal.HostValue

end
-- ==== Proof.RunValue.lean ====
/-
  The idealized kernel's run, with its result named. The result buffer is the 8192 × 1024 result array reshaped to
  [4, 2048, 1024]; that array holds the network applied to each token; token 2048·b + s is row (b, s) of the input, the
  weights are the arguments' and the bias rows hold the arguments' biases. So entry (b, s, q) of the result buffer is
  `DenseFfn.result` of the five arguments at (b, s, q), and the arguments end as they were launched.
-/
import proofs.«136109_j58506044506432_1_alg».proof.Proof.HostValue

set_option maxRecDepth 16384

noncomputable section

namespace Cert.KernelIdeal.RunValue

open Cert.KernelIdeal Cert.KernelIdeal.Gen Cert.KernelIdeal.ArrayValue Cert.KernelIdeal.HostValue
open Idealize.ShloMosaic Idealize.ShloMosaic.TcCoe Idealize.ShloMosaic.ValueIdx Idealize.SL.Sem Cert.DenseFfn

variable (m : (ℓ : Loc nD τ sig) → Buf (Elt Ideal) ℓ)

/-- The result buffer after the run is the network applied to the arguments. -/
theorem result_value (c : Dev nD) :
    Pipeline.afterTail₀ cfgs (dats m) 0 (V0 m) [hostOps1] c main_v6
      = result (argX m c) (argW1 m c) (argB1 m c) (argW2 m c) (argB2 m c) := by
  rw [tail_eq]
  funext i
  obtain ⟨b, s, q, rfl⟩ : ∃ (b : Fin 4) (s : Fin 2048) (q : Fin 1024), i = ix3 b s q := ⟨i 0, i 1, i 2, eq_ix3 i⟩
  rw [result_apply]
  refine (shapeCast_apply (outRows m c) _ (ix3 b s q) (ix2 (tokenOf b s) q) ?_).trans ?_
  · rw [Shape.rowMajor_val_two, Shape.rowMajor_val_three]
    rfl
  unfold outRows
  rw [rows_apply]
  exact entry_congr (funext fun d => tokens_apply m c b s d) (funext fun d => funext fun k => weights1_apply m c d k)
    (funext fun k => bias1_apply m c k) (funext fun k => funext fun q => weights2_apply m c k q)
    (funext fun q => bias2_apply m c q) q

/-- Every weakly fair execution of the idealized kernel terminates with the result buffer at the network applied to the
    arguments, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v6) = result (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  The claim: a tiled kernel for a two-layer dense network with a rectifier, `max(x · w1 + b1, 0) · w2 + b2` over
  x : [4, 2048, 1024], w1 : [1024, 4096], w2 : [4096, 1024], against the same network written as two whole contractions.

  The kernel flattens the input to 8192 tokens, narrows the weights to sixteen bits, and on each of 32 blocks of
  256 tokens multiplies, adds the bias, rectifies, narrows, multiplies again and adds the second bias; the result
  is reshaped back. Over the extended reals a narrowing changes no value and a product into a zero accumulator is the
  plain sum, so entry (b, s, q) of the kernel's result is
      Σ_k max (Σ_d x[b,s,d] · w1[d,k] + b1[k]) 0 · w2[k,q] + b2[q],
  which is also what the reference's two contractions, its two broadcast biases and its maximum give: the two
  results are the same sums term by term, and no law of arithmetic beyond that is used, so the finiteness of the
  inputs is not needed for the values. The idealized kernel is the kernel's own text read over the extended reals
  (no rewrite was applied), so `preserves` has nothing to state.

  The modules: `Spec` (the network's entry, and its two layouts), `RefValue` (the reference's result is the
  network), `BlockValue` (the kernel body's store at an entry), `ArrayValue` (from the 32 blocks to the result array),
  `HostValue` (the reshapes and narrowings around the call), `RunValue` (the idealized kernel's run with its result named).
-/
import proofs.«136109_j58506044506432_1_alg».proof.Defs
import proofs.«136109_j58506044506432_1_alg».proof.Proof.Gen.Kernel
import proofs.«136109_j58506044506432_1_alg».proof.Proof.Gen.Kernel.Skeleton
import proofs.«136109_j58506044506432_1_alg».proof.Proof.Gen.Kernel.Launch
import proofs.«136109_j58506044506432_1_alg».proof.Proof.Gen.Kernel.Points
import proofs.«136109_j58506044506432_1_alg».proof.Proof.Gen.Kernel.Frame
import proofs.«136109_j58506044506432_1_alg».proof.Proof.Gen.KernelIdeal
import proofs.«136109_j58506044506432_1_alg».proof.Proof.Gen.KernelIdeal.Skeleton
import proofs.«136109_j58506044506432_1_alg».proof.Proof.Gen.KernelIdeal.Launch
import proofs.«136109_j58506044506432_1_alg».proof.Proof.Gen.KernelIdeal.Points
import proofs.«136109_j58506044506432_1_alg».proof.Proof.Gen.KernelIdeal.Frame
import proofs.«136109_j58506044506432_1_alg».proof.Proof.Gen.ReferenceIdeal
import proofs.«136109_j58506044506432_1_alg».proof.Proof.Gen.ReferenceIdeal.Run
import proofs.«136109_j58506044506432_1_alg».proof.Proof.Gen.ReferenceIdeal.Read
import proofs.«136109_j58506044506432_1_alg».proof.Proof.Gen.Pre_finite_inputs
import proofs.«136109_j58506044506432_1_alg».proof.Proof.RefValue
import proofs.«136109_j58506044506432_1_alg».proof.Proof.RunValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the five arguments both programs end with the network applied to them. -/
theorem algebraic : Cert.algebraic_KernelIdeal_ReferenceIdeal := by
  intro m ρ m' ρ' _ hagree
  refine ⟨fun c => Cert.DenseFfn.result (Cert.KernelIdeal.HostValue.argX m c) (Cert.KernelIdeal.HostValue.argW1 m c)
      (Cert.KernelIdeal.HostValue.argB1 m c) (Cert.KernelIdeal.HostValue.argW2 m c) (Cert.KernelIdeal.HostValue.argB2 m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
